-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x64 : Shape := ⟨3, ![32, 4096, 64]⟩
abbrev S32x4096x2 : Shape := ⟨3, ![32, 4096, 2]⟩
abbrev S_ : Shape := ⟨0, ![]⟩

class Facts : Prop where
  bcast_S_S32x4096x64 : S_.BroadcastsInDim S32x4096x64 (![] : Fin 0 → Fin S32x4096x64.rank)
  reducesTo_S32x4096x64_S_d0_1_2 : S32x4096x64.ReducesTo [0, 1, 2] S_
  h_S_ : 0 < S_.numel
  bcast_S_S32x4096x2 : S_.BroadcastsInDim S32x4096x2 (![] : Fin 0 → Fin S32x4096x2.rank)
  reducesTo_S32x4096x2_S_d0_1_2 : S32x4096x2.ReducesTo [0, 1, 2] S_

variable [Facts]

def fn {F : FTy → Type} [FloatOps F] (main_arg0 : FVec F S32x4096x64 .f32) (main_arg1 : IVec S32x4096x2 32) : IVec S_ 1 :=
  let main_v0 : FVec F S32x4096x64 .f32 := Host.absf main_arg0
  let main_cst : FVec F S_ .f32 := constant S_ .f32 0x7F800000#32
  let main_v1 : FVec F S32x4096x64 .f32 := broadcastInDim S32x4096x64 ![] bcast_S_S32x4096x64 main_cst
  let main_v2 : IVec S32x4096x64 1 := cmpf .olt main_v0 main_v1
  let main_c : IVec S_ 1 := constantI S_ 1 1#1
  let main_v3 : IVec S_ 1 := (fun x v => Host.reduce IntOp.andi x v reducesTo_S32x4096x64_S_d0_1_2 h_S_) main_v2 main_c
  let main_c_0 : IVec S_ 32 := constantI S_ 32 0#32
  let main_v4 : IVec S32x4096x2 32 := broadcastInDim S32x4096x2 ![] bcast_S_S32x4096x2 main_c_0
  let main_v5 : IVec S32x4096x2 1 := cmpi .sge main_arg1 main_v4
  let main_c_1 : IVec S_ 32 := constantI S_ 32 128#32
  let main_v6 : IVec S32x4096x2 32 := broadcastInDim S32x4096x2 ![] bcast_S_S32x4096x2 main_c_1
  let main_v7 : IVec S32x4096x2 1 := cmpi .slt main_arg1 main_v6
  let main_v8 : IVec S32x4096x2 1 := andi main_v5 main_v7
  let main_c_2 : IVec S_ 1 := constantI S_ 1 1#1
  let main_v9 : IVec S_ 1 := (fun x v => Host.reduce IntOp.andi x v reducesTo_S32x4096x2_S_d0_1_2 h_S_) main_v8 main_c_2
  let main_v10 : IVec S_ 1 := andi main_v3 main_v9
  main_v10
-- ==== Kernel.lean ====
abbrev S32x4096x64 : Shape := ⟨3, ![32, 4096, 64]⟩
abbrev S32x4096x2 : Shape := ⟨3, ![32, 4096, 2]⟩
abbrev S32x16384x64 : Shape := ⟨3, ![32, 16384, 64]⟩
abbrev S1x4096x64 : Shape := ⟨3, ![1, 4096, 64]⟩
abbrev S1x4096x2 : Shape := ⟨3, ![1, 4096, 2]⟩
abbrev S1x1024x64 : Shape := ⟨3, ![1, 1024, 64]⟩
abbrev S4096x64 : Shape := ⟨2, ![4096, 64]⟩
abbrev S4096x2 : Shape := ⟨2, ![4096, 2]⟩
abbrev S4096x1 : Shape := ⟨2, ![4096, 1]⟩
abbrev S4096 : Shape := ⟨1, ![4096]⟩
abbrev S1x1024 : Shape := ⟨2, ![1, 1024]⟩
abbrev S4096x1024 : Shape := ⟨2, ![4096, 1024]⟩
abbrev S1024x64 : Shape := ⟨2, ![1024, 64]⟩
abbrev S32x128x128x64 : Shape := ⟨4, ![32, 128, 128, 64]⟩

abbrev nBuf : Space → Nat
  | .hbm => 4
  | .vmem => 6
  | .smem => 0
  | _ => 0

abbrev bufTy : (tb : Table) → Fin (tcTables nBuf tb) → BufTy
  | .hbm, ⟨0, _⟩ => ⟨S32x4096x64, .f32⟩
  | .hbm, ⟨1, _⟩ => ⟨S32x4096x2, .i32⟩
  | .hbm, ⟨2, _⟩ => ⟨S32x16384x64, .f32⟩
  | .hbm, ⟨3, _⟩ => ⟨S32x128x128x64, .f32⟩
  | .local _ .vmem, ⟨0, _⟩ => ⟨S1x4096x64, .f32⟩
  | .local _ .vmem, ⟨1, _⟩ => ⟨S1x4096x64, .f32⟩
  | .local _ .vmem, ⟨2, _⟩ => ⟨S1x4096x2, .i32⟩
  | .local _ .vmem, ⟨3, _⟩ => ⟨S1x4096x2, .i32⟩
  | .local _ .vmem, ⟨4, _⟩ => ⟨S1x1024x64, .f32⟩
  | .local _ .vmem, ⟨5, _⟩ => ⟨S1x1024x64, .f32⟩
  | _, _ => ⟨S32x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  bitsLt_bf16_f32 : FTy.bits .bf16 < FTy.bits .f32
  inb_S1x4096x2_S1x4096x2_0_0_0 : ∀ a, (![0, 0, 0] : Fin 3 → Nat) a + S1x4096x2.size a ≤ S1x4096x2.size a
  h_S1x4096x2 : 0 < S1x4096x2.numel
  shapeCasts_S1x4096x2_S4096x2 : S1x4096x2.ShapeCasts S4096x2
  slices_S4096x2_o0_0_S4096x1 : S4096x2.Slices ![0, 0] S4096x1
  shapeCasts_S4096x1_S4096 : S4096x1.ShapeCasts S4096
  slices_S4096x2_o0_1_S4096x1 : S4096x2.Slices ![0, 1] S4096x1
  iota_S1x1024_d1_w32 : S1x1024.Iotas .tc 32 [1]
  shapeCasts_S4096_S4096x1 : S4096.ShapeCasts S4096x1
  broadcasts_S4096x1_S4096x1024 : S4096x1.Broadcasts S4096x1024
  broadcasts_S1x1024_S4096x1024 : S1x1024.Broadcasts S4096x1024
  natLt_1_32 : 1 < 32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  shapeCasts_S32x16384x64_S32x128x128x64 : S32x16384x64.ShapeCasts S32x128x128x64
  dot_S4096x1024_S4096x64_S1024x64_0_0_1_1_n_n_wf : DotDims.WF S4096x1024 S4096x64 S1024x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x64.size a ≤ S32x4096x64.size a
  hwx0_0 : ∀ i : grid0.Coords, EltTy.bits .f32 = 32 ∨ (Rect.block (s := S32x4096x64) S1x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x2.size a ≤ S32x4096x2.size a
  hwx0_1 : ∀ i : grid0.Coords, EltTy.bits .i32 = 32 ∨ (Rect.block (s := S32x4096x2) S1x4096x2.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S32x16384x64.size a
  hwx0_2 : ∀ i : grid0.Coords, EltTy.bits .f32 = 32 ∨ (Rect.block (s := S32x16384x64) S1x1024x64.size (cc0_transform_2 i) (hinb0_2 i)).WholeWords (EltTy.packing .f32)

variable [Facts₀]

def dot_S4096x1024_S4096x64_S1024x64_0_0_1_1_n_n : DotDims S4096x1024 S4096x64 S1024x64 where
  lhsContracting := [0]
  rhsContracting := [0]
  lhsNonContracting := [1]
  rhsNonContracting := [1]
  lhsBatch := []
  rhsBatch := []
  wf := dot_S4096x1024_S4096x64_S1024x64_0_0_1_1_n_n_wf

abbrev win0_0 : Pipeline.Window sig grid0 :=
  Pipeline.Window.ofSpec (Memref.whole main_arg0) S1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x4096x64 : Shape := ⟨3, ![32, 4096, 64]⟩
abbrev S32x4096x2 : Shape := ⟨3, ![32, 4096, 2]⟩
abbrev S32 : Shape := ⟨1, ![32]⟩
abbrev S32x1 : Shape := ⟨2, ![32, 1]⟩
abbrev S32x4096 : Shape := ⟨2, ![32, 4096]⟩
abbrev S32x4096x1 : Shape := ⟨3, ![32, 4096, 1]⟩
abbrev S_ : Shape := ⟨0, ![]⟩
abbrev S32x128x128x64 : Shape := ⟨4, ![32, 128, 128, 64]⟩
abbrev S32x4096x3 : Shape := ⟨3, ![32, 4096, 3]⟩

abbrev nBuf : Space → Nat
  | .hbm => 37
  | .vmem => 0
  | .smem => 0
  | _ => 0

abbrev bufTy : (tb : Table) → Fin (tcTables nBuf tb) → BufTy
  | .hbm, ⟨0, _⟩ => ⟨S32x4096x64, .f32⟩
  | .hbm, ⟨1, _⟩ => ⟨S32x4096x2, .i32⟩
  | .hbm, ⟨2, _⟩ => ⟨S32, .i32⟩
  | .hbm, ⟨3, _⟩ => ⟨S32x1, .i32⟩
  | .hbm, ⟨4, _⟩ => ⟨S32x4096, .i32⟩
  | .hbm, ⟨5, _⟩ => ⟨S32x4096x1, .i32⟩
  | .hbm, ⟨6, _⟩ => ⟨S32x4096, .i32⟩
  | .hbm, ⟨7, _⟩ => ⟨S32x4096x1, .i32⟩
  | .hbm, ⟨8, _⟩ => ⟨S32x4096, .i32⟩
  | .hbm, ⟨9, _⟩ => ⟨S_, .f32⟩
  | .hbm, ⟨10, _⟩ => ⟨S32x128x128x64, .f32⟩
  | .hbm, ⟨11, _⟩ => ⟨S_, .i32⟩
  | .hbm, ⟨12, _⟩ => ⟨S32x4096, .i32⟩
  | .hbm, ⟨13, _⟩ => ⟨S32x4096, .i1⟩
  | .hbm, ⟨14, _⟩ => ⟨S_, .i32⟩
  | .hbm, ⟨15, _⟩ => ⟨S32x4096, .i32⟩
  | .hbm, ⟨16, _⟩ => ⟨S32x4096, .i32⟩
  | .hbm, ⟨17, _⟩ => ⟨S32x4096, .i32⟩
  | .hbm, ⟨18, _⟩ => ⟨S_, .i32⟩
  | .hbm, ⟨19, _⟩ => ⟨S32x4096, .i32⟩
  | .hbm, ⟨20, _⟩ => ⟨S32x4096, .i1⟩
  | .hbm, ⟨21, _⟩ => ⟨S_, .i32⟩
  | .hbm, ⟨22, _⟩ => ⟨S32x4096, .i32⟩
  | .hbm, ⟨23, _⟩ => ⟨S32x4096, .i32⟩
  | .hbm, ⟨24, _⟩ => ⟨S32x4096, .i32⟩
  | .hbm, ⟨25, _⟩ => ⟨S_, .i32⟩
  | .hbm, ⟨26, _⟩ => ⟨S32x4096, .i32⟩
  | .hbm, ⟨27, _⟩ => ⟨S32x4096, .i1⟩
  | .hbm, ⟨28, _⟩ => ⟨S_, .i32⟩
  | .hbm, ⟨29, _⟩ => ⟨S32x4096, .i32⟩
  | .hbm, ⟨30, _⟩ => ⟨S32x4096, .i32⟩
  | .hbm, ⟨31, _⟩ => ⟨S32x4096, .i32⟩
  | .hbm, ⟨32, _⟩ => ⟨S32x4096x1, .i32⟩
  | .hbm, ⟨33, _⟩ => ⟨S32x4096x1, .i32⟩
  | .hbm, ⟨34, _⟩ => ⟨S32x4096x1, .i32⟩
  | .hbm, ⟨35, _⟩ => ⟨S32x4096x3, .i32⟩
  | .hbm, ⟨36, _⟩ => ⟨S32x128x128x64, .f32⟩
  | _, _ => ⟨S32x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_v19 : Ref sig .tc := ⟨.hbm, 27, rfl⟩
abbrev main_c_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  bcast_S32_S32x1_0 : S32.BroadcastsInDim S32x1 (![0] : Fin 1 → Fin S32x1.rank)
  bcast_S32x1_S32x4096_0_1 : S32x1.BroadcastsInDim S32x4096 (![0, 1] : Fin 2 → Fin S32x4096.rank)
  slices_S32x4096x2_S32x4096x1_0_0_0 : S32x4096x2.Slices ![0, 0, 0] S32x4096x1
  shapeCasts_S32x4096x1_S32x4096 : S32x4096x1.ShapeCasts S32x4096
  slices_S32x4096x2_S32x4096x1_0_0_1 : S32x4096x2.Slices ![0, 0, 1] S32x4096x1
  bcast_S_S32x128x128x64 : S_.BroadcastsInDim S32x128x128x64 (![] : Fin 0 → Fin S32x128x128x64.rank)
  bcast_S_S32x4096 : S_.BroadcastsInDim S32x4096 (![] : Fin 0 → Fin S32x4096.rank)
  bcast_S32x4096_S32x4096x1_0_1 : S32x4096.BroadcastsInDim S32x4096x1 (![0, 1] : Fin 2 → Fin S32x4096x1.rank)
  concatenates_S32x4096x1_S32x4096x1_S32x4096x1_S32x4096x3_d2 : Shape.Concatenates [S32x4096x1, S32x4096x1, S32x4096x1] S32x4096x3 2
  scatter_S32x128x128x64_S32x4096x3_S32x4096x64_2_012_012_2_wf : ScatterDims.WF S32x128x128x64 S32x4096x3 S32x4096x64 [2] [0, 1, 2] [0, 1, 2] 2

variable [Facts₀]

def scatter_S32x128x128x64_S32x4096x3_S32x4096x64_2_012_012_2 : ScatterDims S32x128x128x64 S32x4096x3 S32x4096x64 where
  updateWindowDims := [2]
  insertedWindowDims := [0, 1, 2]
  scatterDimsToOperandDims := [0, 1, 2]
  indexVectorDim := 2
  wf := scatter_S32x128x128x64_S32x4096x3_S32x4096x64_2_012_012_2_wf

class Facts : Prop extends Facts₀ where

variable [Facts]
-- ==== Proof.Spec.lean ====
/-
  The scatter-add of edge features into a dense [batch, atom, atom, feature] tensor, as ONE function of the two
  argument arrays, in the two arrangements the programs use.

  * `flatSum`: the one-hot contraction over the flattened pair space. Row `k` of batch `b` collects every edge `m`
    whose word `i_m * 128 + j_m` (32-bit arithmetic) is the word `k`: a sum over all 4096 edges of the feature
    times a 0/1 indicator.
  * `denseSum`: entry `(p, q)` of batch `b` collects every edge whose pair is `(p, q)`.

  When both members of every pair lie in `[0, 128)` the word `i * 128 + j` does not wrap and determines `(i, j)`
  (quotient and remainder by 128), so row `p * 128 + q` of the first is entry `(p, q)` of the second: `flat_eq_dense`.
-/
import Idealize.ShloMosaic.PureOps.Ideal
import Idealize.ShloMosaic.Lib.ValueIdx

noncomputable section

open scoped BigOperators

namespace Cert.ScatterSpec

open Idealize.ShloMosaic Idealize.ShloMosaic.ValueIdx

abbrev SEdge : Shape := ⟨3, ![32, 4096, 64]⟩
abbrev SPair : Shape := ⟨3, ![32, 4096, 2]⟩
abbrev SFlat : Shape := ⟨3, ![32, 16384, 64]⟩
abbrev SDense : Shape := ⟨4, ![32, 128, 128, 64]⟩

/-- Row `k`, feature `f` of batch `b` in the flattened arrangement: the features of the edges whose pair word is `k`. -/
def flatSum (ef : SEdge.Idx → EReal) (pr : SPair.Idx → BitVec 32) (b : Fin 32) (k : Fin 16384) (f : Fin 64) : EReal :=
  ∑ m : Fin 4096,
    if pr (ix3 b m (0 : Fin 2)) * 128#32 + pr (ix3 b m (1 : Fin 2)) = BitVec.ofNat 32 k.val then ef (ix3 b m f) else 0

/-- Entry `(p, q)`, feature `f` of batch `b` in the dense arrangement: the features of the edges whose pair is `(p, q)`. -/
def denseSum (ef : SEdge.Idx → EReal) (pr : SPair.Idx → BitVec 32) (b : Fin 32) (p q : Fin 128) (f : Fin 64) : EReal :=
  ∑ m : Fin 4096,
    if (pr (ix3 b m (0 : Fin 2))).toNat = p.val ∧ (pr (ix3 b m (1 : Fin 2))).toNat = q.val then ef (ix3 b m f) else 0

/-- The flattened result array. -/
def flat (ef : SEdge.Idx → EReal) (pr : SPair.Idx → BitVec 32) : SFlat.Idx → EReal :=
  fun o => flatSum ef pr (o 0) (o 1) (o 2)

/-- The dense result array. -/
def dense (ef : SEdge.Idx → EReal) (pr : SPair.Idx → BitVec 32) : SDense.Idx → EReal :=
  fun o => denseSum ef pr (o 0) (o 1) (o 2) (o 3)

/-- For two words below 128 the word `x * 128 + y` is `p * 128 + q` exactly when `x = p` and `y = q`: nothing wraps,
    and the pair is the quotient and the remainder by 128. -/
theorem word_eq_iff (x y : BitVec 32) (hx : x.toNat < 128) (hy : y.toNat < 128) (p q : Fin 128) :
    x * 128#32 + y = BitVec.ofNat 32 (p.val * 128 + q.val) ↔ x.toNat = p.val ∧ y.toNat = q.val := by
  rw [← BitVec.toNat_inj]
  simp only [BitVec.toNat_add, BitVec.toNat_mul, BitVec.toNat_ofNat]
  have hp := p.isLt
  have hq := q.isLt
  omega

/-- Row `p * 128 + q` of the flattened arrangement is entry `(p, q)` of the dense one, when every pair member is in range. -/
theorem flat_eq_dense (ef : SEdge.Idx → EReal) (pr : SPair.Idx → BitVec 32) (hr : ∀ x, (pr x).toNat < 128)
    (b : Fin 32) (p q : Fin 128) (f : Fin 64) (k : Fin 16384) (hk : k.val = p.val * 128 + q.val) :
    flatSum ef pr b k f = denseSum ef pr b p q f := by
  unfold flatSum denseSum
  refine Finset.sum_congr rfl fun m _ => ?_
  rw [hk]
  exact if_congr (word_eq_iff _ _ (hr _) (hr _) p q) rfl rfl

end Cert.ScatterSpec

end
-- ==== Proof.PreRange.lean ====
/-
  What the precondition says of the pair indices. The printed predicate is the conjunction of "every edge feature is
  finite" with "every pair index `w` satisfies `0 ≤ w` and `w < 128`, read signed", each an `and`-reduction over a whole
  array from the constant 1. When the predicate is 1 both reductions are 1, so every element of the second mask is 1,
  so both comparisons hold at every index; a 32-bit word that is non-negative and below 128 read signed is below 128
  read unsigned.
-/
import proofs.«422634_j56538949484714_1_alg».proof.Pre_finite_inputs
import Idealize.ShloMosaic.Lib.ReduceAll
import Idealize.ShloMosaic.Lib.ValueIdx

noncomputable section

namespace Cert.PreRange

open Idealize.ShloMosaic Idealize.ShloMosaic.ValueIdx Cert.Pre_finite_inputs

variable [Cert.Pre_finite_inputs.Facts]

/-- The scalar shape has one index. -/
instance : Subsingleton S_.Idx := ⟨fun a b => funext fun d => d.elim0⟩

/-- A word that reads signed as a number in `[0, 128)` reads unsigned as the same number. -/
theorem toNat_lt_of_toInt (w : BitVec 32) (h0 : (0 : Int) ≤ w.toInt) (h1 : w.toInt < 128) : w.toNat < 128 := by
  rw [BitVec.toInt_eq_toNat_cond] at h0 h1
  split at h0 <;> omega

/-- Under the precondition every pair index is below 128. -/
theorem range_of_pre {F : FTy → Type} [FloatOps F] (x : FVec F S32x4096x64 .f32) (pr : IVec S32x4096x2 32)
    (h : Cert.Pre_finite_inputs.fn (F := F) x pr = fun _ => 1#1) (i : S32x4096x2.Idx) : (pr i).toNat < 128 := by
  have h0 := congrFun h ix0
  dsimp only [Cert.Pre_finite_inputs.fn] at h0
  obtain ⟨-, h9⟩ := IntOp.andi_eq_one.1 h0
  have h8 := Host.reduce_andi_all _ _ _ _ ix0 h9 i
  obtain ⟨hge, hlt⟩ := IntOp.andi_eq_one.1 h8
  have hge' := IntOp.cmpi_sge.1 hge
  have hlt' := IntOp.cmpi_slt.1 hlt
  have e0 : (broadcastInDim S32x4096x2 ![] Facts.bcast_S_S32x4096x2 (constantI S_ 32 0#32) i).toInt = 0 :=
    show (0#32 : BitVec 32).toInt = 0 by decide
  have e1 : (broadcastInDim S32x4096x2 ![] Facts.bcast_S_S32x4096x2 (constantI S_ 32 128#32) i).toInt = 128 :=
    show (128#32 : BitVec 32).toInt = 128 by decide
  rw [e0] at hge'
  rw [e1] at hlt'
  exact toNat_lt_of_toInt _ hge' hlt'

end Cert.PreRange

end
-- ==== Proof.KernelPayload.lean ====
/-
  The value one grid step stores, read at an index. The step at tile \`t\` (the second grid coordinate) builds, for the
  4096 edges \`m\` and the tile's 1024 rows \`r\`, the 0/1 matrix "edge \`m\`'s pair word \`i_m * 128 + j_m\` is the word of row
  \`t * 1024 + r\`" and contracts it over the edges with the \`[4096, 64]\` feature block. So entry \`(r, f)\` of the stored
  block is the sum of feature \`f\` over the edges whose pair word is that row's word: \`pay_apply\`. Everything is in
  32-bit word arithmetic on the index side and in extended reals on the feature side; nothing is assumed of the pairs.
-/
import proofs.«422634_j56538949484714_1_alg».proof.Proof.Gen.KernelIdeal.Skeleton
import proofs.«422634_j56538949484714_1_alg».proof.Proof.Spec
import Idealize.ShloMosaic.Lib.ValueIdx
import Idealize.ShloMosaic.Lib.ValueLayout
import Idealize.ShloMosaic.PureOps.Ideal.Laws
noncomputable section
open scoped BigOperators
namespace Cert.KernelIdeal.Payload
open Idealize.ShloMosaic Idealize.ShloMosaic.ValueIdx Cert.KernelIdeal Cert.KernelIdeal.Gen

/-! ## Words -/

/-- A one-bit equality test, widened to a word and read as a signed integer, is the real indicator of the equality. -/
theorem indicator_word (a b : BitVec 32) :
    (FloatOps.sitofp (F := Ideal) .f32 ((IntOp.cmpi .eq a b).setWidth 32) : EReal) = if a = b then 1 else 0 := by
  show (((((IntOp.cmpi .eq a b).setWidth 32).toInt : ℝ)) : EReal) = _
  by_cases h : a = b
  · rw [if_pos h]
    have hb : (a == b) = true := beq_iff_eq.mpr h
    have hw : (IntOp.cmpi .eq a b).setWidth 32 = 1#32 := by
      show (BitVec.ofBool (a == b)).setWidth 32 = 1#32
      rw [hb]; rfl
    rw [hw]
    norm_num
  · rw [if_neg h]
    have hb : (a == b) = false := beq_eq_false_iff_ne.mpr h
    have hw : (IntOp.cmpi .eq a b).setWidth 32 = 0#32 := by
      show (BitVec.ofBool (a == b)).setWidth 32 = 0#32
      rw [hb]; rfl
    rw [hw]
    norm_num

/-- The tile's first row (tile number times tile height) plus the row inside the tile, computed in words, is the word of
    the sum of the naturals: word addition and multiplication are those of the naturals modulo \`2 ^ 32\`. -/
theorem row_word (t r : Nat) :
    Scalar.muli (BitVec.ofNat 32 t) 1024#32 + BitVec.ofNat 32 r = BitVec.ofNat 32 (t * 1024 + r) := by
  show BitVec.ofNat 32 t * BitVec.ofNat 32 1024 + BitVec.ofNat 32 r = _
  rw [BitVec.ofNat_add, BitVec.ofNat_mul]

/-! ## Layout stages at an index -/

section Layout
variable {α : Type}

/-- A column \`[a, 1]\` flattened to a vector \`[a]\` reads, at \`m\`, the column at \`(m, 0)\`. -/
theorem col_to_vec_apply {a : ℕ} (x : (⟨2, ![a, 1]⟩ : Shape).Idx → α)
    (h : (⟨2, ![a, 1]⟩ : Shape).ShapeCasts ⟨1, ![a]⟩) (m : Fin a) :
    shapeCast ⟨1, ![a]⟩ x h (ix1 m) = x (ix2 m (0 : Fin 1)) :=
  shapeCast_apply x h _ _ (by
    rw [Shape.rowMajor_val_two, Shape.rowMajor_val_one]
    show m.val * 1 + 0 = m.val
    omega)

/-- A vector \`[a]\` stood up as a column \`[a, 1]\` reads, at \`(m, u)\`, the vector at \`m\`. -/
theorem vec_to_col_apply {a : ℕ} (x : (⟨1, ![a]⟩ : Shape).Idx → α)
    (h : (⟨1, ![a]⟩ : Shape).ShapeCasts ⟨2, ![a, 1]⟩) (m : Fin a) (u : Fin 1) :
    shapeCast ⟨2, ![a, 1]⟩ x h (ix2 m u) = x (ix1 m) :=
  shapeCast_apply x h _ _ (by
    have hu : u.val = 0 := by omega
    rw [Shape.rowMajor_val_two, Shape.rowMajor_val_one]
    show m.val = m.val * 1 + u.val
    omega)

/-- A column \`[a, 1]\` repeated along \`b\` columns reads, at \`(m, c)\`, the column at \`(m, 0)\`. -/
theorem col_broadcast_apply {a b : ℕ} (ha : a ≠ 1) (x : (⟨2, ![a, 1]⟩ : Shape).Idx → α)
    (h : (⟨2, ![a, 1]⟩ : Shape).Broadcasts ⟨2, ![a, b]⟩) (m : Fin a) (c : Fin b) :
    broadcastTo ⟨2, ![a, b]⟩ x h (ix2 m c) = x (ix2 m (0 : Fin 1)) := by
  refine broadcastTo_apply x h (ix2 m c) (ix2 m (0 : Fin 1)) fun ax => ?_
  match ax with
  | ⟨0, _⟩ =>
    show m.val = if a = 1 then 0 else m.val
    rw [if_neg ha]
  | ⟨1, _⟩ => rfl

end Layout

/-! ## The body's operands, named

The stored block is the product of two operands, each a chain of layout and elementwise operations over one argument
block; they are named here, so that the payload is, by definition, the product of the two. -/

/-- The right operand \`[4096, 64]\`: the feature block without its unit batch axis, narrowed. -/
def feat (x0 : Vec Ideal S1x4096x64 .f32) : FVec Ideal S4096x64 .bf16 :=
  truncf .bf16 (shapeCast S4096x64 x0 shapeCasts_S1x4096x64_S4096x64) bitsLt_bf16_f32

/-- The vector \`[4096]\` of pair words: first member times 128 plus second member, in 32-bit words. -/
def pairWords (x1 : Vec Ideal S1x4096x2 .i32) : IVec S4096 32 :=
  addi
    (muli
      (shapeCast S4096 (extractStridedSlice S4096x1 ![0, 0] (shapeCast S4096x2 x1 shapeCasts_S1x4096x2_S4096x2 : IVec S4096x2 32)
        slices_S4096x2_o0_0_S4096x1) shapeCasts_S4096x1_S4096)
      (broadcast S4096 128#32))
    (shapeCast S4096 (extractStridedSlice S4096x1 ![0, 1] (shapeCast S4096x2 x1 shapeCasts_S1x4096x2_S4096x2 : IVec S4096x2 32)
      slices_S4096x2_o0_1_S4096x1) shapeCasts_S4096x1_S4096)

/-- The row \`[1, 1024]\` of the tile's row words: the tile's first row plus the position in the tile. -/
def rowWords (i : grid0.Coords) : IVec S1x1024 32 :=
  addi (broadcast S1x1024 (Scalar.muli (BitVec.ofNat 32 (i 1).val) 1024#32)) (iota .tc S1x1024 32 [1] iota_S1x1024_d1_w32)

/-- The left operand \`[4096, 1024]\`: at \`(m, r)\` the 0/1 indicator that edge \`m\`'s pair word is row \`r\`'s word. -/
def onehot (i : grid0.Coords) (x1 : Vec Ideal S1x4096x2 .i32) : FVec Ideal S4096x1024 .bf16 :=
  truncf .bf16
    (sitofp .f32
      (extui 32
        (cmpi .eq
          (broadcastTo S4096x1024 (shapeCast S4096x1 (pairWords x1) shapeCasts_S4096_S4096x1) broadcasts_S4096x1_S4096x1024)
          (broadcastTo S4096x1024 (rowWords i) broadcasts_S1x1024_S4096x1024))
        natLt_1_32))
    bitsLt_bf16_f32

/-- The payload is the product of the two operands into the zero block, with a unit batch axis put in front. -/
theorem pay_eq (i : grid0.Coords) (x0 : Vec Ideal S1x4096x64 .f32) (x1 : Vec Ideal S1x4096x2 .i32) :
    k0_pay1 (F := Ideal) i x0 x1
      = shapeCast S1x1024x64
          (matmul (F := Ideal) dot_S4096x1024_S4096x64_S1024x64_0_0_1_1_n_n none (onehot i x1) (feat x0) (constant (F := Ideal) S1024x64 .f32 0x00000000#32))
          shapeCasts_S1024x64_S1x1024x64 := rfl

/-! ## The operands at an index -/

/-- The right operand at \`(m, f)\`: the feature block at \`(0, m, f)\` (the narrowing of the format is the identity on
    extended reals). -/
theorem feat_apply (x0 : Vec Ideal S1x4096x64 .f32) (mm : Fin 4096) (f : Fin 64) :
    feat x0 (ix2 mm f) = x0 (ix3 (0 : Fin 1) mm f) :=
  shapeCast_1ab_ab_apply x0 shapeCasts_S1x4096x64_S4096x64 mm f

/-- The pair block without its unit batch axis, at \`(m, c)\`. -/
theorem pairs_apply (x1 : Vec Ideal S1x4096x2 .i32) (mm : Fin 4096) (c : Fin 2) :
    (shapeCast S4096x2 x1 shapeCasts_S1x4096x2_S4096x2 : IVec S4096x2 32) (ix2 mm c) = x1 (ix3 (0 : Fin 1) mm c) :=
  shapeCast_1ab_ab_apply x1 shapeCasts_S1x4096x2_S4096x2 mm c

/-- The vector of first pair members at \`m\`: column 0 of the pair block, flattened. -/
theorem first_apply (x1 : Vec Ideal S1x4096x2 .i32) (mm : Fin 4096) :
    (shapeCast S4096 (extractStridedSlice S4096x1 ![0, 0] (shapeCast S4096x2 x1 shapeCasts_S1x4096x2_S4096x2 : IVec S4096x2 32)
        slices_S4096x2_o0_0_S4096x1) shapeCasts_S4096x1_S4096 : IVec S4096 32) (ix1 mm)
      = x1 (ix3 (0 : Fin 1) mm (0 : Fin 2)) := by
  refine (col_to_vec_apply _ shapeCasts_S4096x1_S4096 mm).trans ?_
  refine (slice2_axis1_apply 0 _ slices_S4096x2_o0_0_S4096x1 mm (0 : Fin 1) (0 : Fin 2) rfl).trans ?_
  exact pairs_apply x1 mm 0

/-- The vector of second pair members at \`m\`: column 1 of the pair block, flattened. -/
theorem second_apply (x1 : Vec Ideal S1x4096x2 .i32) (mm : Fin 4096) :
    (shapeCast S4096 (extractStridedSlice S4096x1 ![0, 1] (shapeCast S4096x2 x1 shapeCasts_S1x4096x2_S4096x2 : IVec S4096x2 32)
        slices_S4096x2_o0_1_S4096x1) shapeCasts_S4096x1_S4096 : IVec S4096 32) (ix1 mm)
      = x1 (ix3 (0 : Fin 1) mm (1 : Fin 2)) := by
  refine (col_to_vec_apply _ shapeCasts_S4096x1_S4096 mm).trans ?_
  refine (slice2_axis1_apply 1 _ slices_S4096x2_o0_1_S4096x1 mm (0 : Fin 1) (1 : Fin 2) rfl).trans ?_
  exact pairs_apply x1 mm 1

/-- The pair word of edge \`m\`. -/
theorem pairWords_apply (x1 : Vec Ideal S1x4096x2 .i32) (mm : Fin 4096) :
    pairWords x1 (ix1 mm) = x1 (ix3 (0 : Fin 1) mm (0 : Fin 2)) * 128#32 + x1 (ix3 (0 : Fin 1) mm (1 : Fin 2)) := by
  rw [← first_apply x1 mm, ← second_apply x1 mm]
  rfl

/-- The row word at position \`r\` of tile \`i 1\`: the word of \`(i 1) * 1024 + r\`. The position is the coordinate the
    counting operation reads along the row axis. -/
theorem rowWords_apply (i : grid0.Coords) (r : Fin 1024) :
    rowWords i (ix2 (0 : Fin 1) r) = BitVec.ofNat 32 ((i 1).val * 1024 + r.val) := by
  have hi : iota .tc S1x1024 32 [1] iota_S1x1024_d1_w32 (ix2 (0 : Fin 1) r) = BitVec.ofNat 32 r.val :=
    iota_single_apply .tc S1x1024 32 1 iota_S1x1024_d1_w32 (ix2 (0 : Fin 1) r)
  show Scalar.muli (BitVec.ofNat 32 (i 1).val) 1024#32 + iota .tc S1x1024 32 [1] iota_S1x1024_d1_w32 (ix2 (0 : Fin 1) r) = _
  rw [hi]
  exact row_word _ _

/-- The left operand at \`(m, r)\`: \`1\` when edge \`m\`'s pair word is the word of row \`(i 1) * 1024 + r\`, else \`0\`. The pair
    words stand as a column repeated along the rows' axis, the row words as a row repeated along the edges' axis. -/
theorem onehot_apply (i : grid0.Coords) (x1 : Vec Ideal S1x4096x2 .i32) (mm : Fin 4096) (r : Fin 1024) :
    onehot i x1 (ix2 mm r)
      = if x1 (ix3 (0 : Fin 1) mm (0 : Fin 2)) * 128#32 + x1 (ix3 (0 : Fin 1) mm (1 : Fin 2))
            = BitVec.ofNat 32 ((i 1).val * 1024 + r.val) then 1 else 0 := by
  have hl : broadcastTo S4096x1024 (shapeCast S4096x1 (pairWords x1) shapeCasts_S4096_S4096x1) broadcasts_S4096x1_S4096x1024 (ix2 mm r)
      = x1 (ix3 (0 : Fin 1) mm (0 : Fin 2)) * 128#32 + x1 (ix3 (0 : Fin 1) mm (1 : Fin 2)) := by
    refine (col_broadcast_apply (by decide) _ broadcasts_S4096x1_S4096x1024 mm r).trans ?_
    refine (vec_to_col_apply _ shapeCasts_S4096_S4096x1 mm 0).trans ?_
    exact pairWords_apply x1 mm
  have hr : broadcastTo S4096x1024 (rowWords i) broadcasts_S1x1024_S4096x1024 (ix2 mm r)
      = BitVec.ofNat 32 ((i 1).val * 1024 + r.val) :=
    (broadcastTo_1b_ab_apply _ broadcasts_S1x1024_S4096x1024 mm r).trans (rowWords_apply i r)
  show FloatOps.sitofp (F := Ideal) .f32
      ((IntOp.cmpi .eq
        (broadcastTo S4096x1024 (shapeCast S4096x1 (pairWords x1) shapeCasts_S4096_S4096x1) broadcasts_S4096x1_S4096x1024 (ix2 mm r))
        (broadcastTo S4096x1024 (rowWords i) broadcasts_S1x1024_S4096x1024 (ix2 mm r))).setWidth 32) = _
  rw [hl, hr]
  exact indicator_word _ _

/-! ## The product at an index

The product contracts the first axis of both operands (the 4096 edges); each operand keeps its second axis, the left
one's (the 1024 rows of the tile) first in the result. -/

/-- On its contracted axis the left operand is read at the contraction coordinate. -/
theorem lhs_axis0 (j : S1024x64.Idx) (k : dot_S4096x1024_S4096x64_S1024x64_0_0_1_1_n_n.contr.Idx) :
    (dot_S4096x1024_S4096x64_S1024x64_0_0_1_1_n_n.lhsIdx j k 0).val = (k ⟨0, by decide⟩).val :=
  DotDims.lhsIdx_val_of_single dot_S4096x1024_S4096x64_S1024x64_0_0_1_1_n_n rfl j k

/-- On its kept axis the left operand is read at the result's row. -/
theorem lhs_axis1 (j : S1024x64.Idx) (k : dot_S4096x1024_S4096x64_S1024x64_0_0_1_1_n_n.contr.Idx) :
    (dot_S4096x1024_S4096x64_S1024x64_0_0_1_1_n_n.lhsIdx j k 1).val = (j 0).val := by
  unfold DotDims.lhsIdx
  rw [dif_neg (show ¬(1 : Fin S4096x1024.rank) ∈ dot_S4096x1024_S4096x64_S1024x64_0_0_1_1_n_n.lhsBatch from List.not_mem_nil),
    dif_pos (show (1 : Fin S4096x1024.rank) ∈ dot_S4096x1024_S4096x64_S1024x64_0_0_1_1_n_n.lhsNonContracting from List.mem_singleton.mpr rfl)]
  rfl

/-- On its contracted axis the right operand is read at the contraction coordinate. -/
theorem rhs_axis0 (j : S1024x64.Idx) (k : dot_S4096x1024_S4096x64_S1024x64_0_0_1_1_n_n.contr.Idx) :
    (dot_S4096x1024_S4096x64_S1024x64_0_0_1_1_n_n.rhsIdx j k 0).val = (k ⟨0, by decide⟩).val :=
  DotDims.rhsIdx_val_of_single dot_S4096x1024_S4096x64_S1024x64_0_0_1_1_n_n rfl j k

/-- On its kept axis the right operand is read at the result's column. -/
theorem rhs_axis1 (j : S1024x64.Idx) (k : dot_S4096x1024_S4096x64_S1024x64_0_0_1_1_n_n.contr.Idx) :
    (dot_S4096x1024_S4096x64_S1024x64_0_0_1_1_n_n.rhsIdx j k 1).val = (j 1).val := by
  unfold DotDims.rhsIdx
  rw [dif_neg (show ¬(1 : Fin S4096x64.rank) ∈ dot_S4096x1024_S4096x64_S1024x64_0_0_1_1_n_n.rhsBatch from List.not_mem_nil),
    dif_pos (show (1 : Fin S4096x64.rank) ∈ dot_S4096x1024_S4096x64_S1024x64_0_0_1_1_n_n.rhsNonContracting from List.mem_singleton.mpr rfl)]
  rfl

/-- The product into the zero block at \`(r, f)\`: the sum over the edges \`m\` of the left operand at \`(m, r)\` times the
    right operand at \`(m, f)\`. The contraction index has one coordinate, and the sum is re-indexed by it. -/
theorem prod_apply (A : FVec Ideal S4096x1024 .bf16) (B : FVec Ideal S4096x64 .bf16) (r : Fin 1024) (f : Fin 64) :
    (matmul (F := Ideal) dot_S4096x1024_S4096x64_S1024x64_0_0_1_1_n_n none A B (constant (F := Ideal) S1024x64 .f32 0x00000000#32)) (ix2 r f)
      = ∑ mm : Fin 4096, A (ix2 mm r) * B (ix2 mm f) := by
  show FloatOps.matmul dot_S4096x1024_S4096x64_S1024x64_0_0_1_1_n_n none A B (constant (F := Ideal) S1024x64 .f32 0x00000000#32) (ix2 r f) = _
  rw [Ideal.matmul_constant_zero_apply, ← Equiv.sum_comp (contrEquiv1 dot_S4096x1024_S4096x64_S1024x64_0_0_1_1_n_n 4096 rfl rfl).symm]
  refine Finset.sum_congr rfl fun mm _ => ?_
  have hl : dot_S4096x1024_S4096x64_S1024x64_0_0_1_1_n_n.lhsIdx (ix2 r f) ((contrEquiv1 dot_S4096x1024_S4096x64_S1024x64_0_0_1_1_n_n 4096 rfl rfl).symm mm) = ix2 mm r := by
    funext a
    refine Fin.ext ?_
    match a with
    | ⟨0, _⟩ => exact (lhs_axis0 _ _).trans (contrEquiv1_symm_val dot_S4096x1024_S4096x64_S1024x64_0_0_1_1_n_n 4096 rfl rfl mm)
    | ⟨1, _⟩ => exact lhs_axis1 _ _
  have hr : dot_S4096x1024_S4096x64_S1024x64_0_0_1_1_n_n.rhsIdx (ix2 r f) ((contrEquiv1 dot_S4096x1024_S4096x64_S1024x64_0_0_1_1_n_n 4096 rfl rfl).symm mm) = ix2 mm f := by
    funext a
    refine Fin.ext ?_
    match a with
    | ⟨0, _⟩ => exact (rhs_axis0 _ _).trans (contrEquiv1_symm_val dot_S4096x1024_S4096x64_S1024x64_0_0_1_1_n_n 4096 rfl rfl mm)
    | ⟨1, _⟩ => exact rhs_axis1 _ _
  rw [hl, hr]

/-! ## The stored value at an index -/

/-- THE PAYLOAD AT \`(0, r, f)\`: the sum over the edges of the feature \`f\` of those whose pair word is the word of row
    \`(i 1) * 1024 + r\`. Each term of the product's sum is an indicator times a feature: one times it where the words
    agree, zero times it (zero, for every extended real) where they do not. -/
theorem pay_apply (i : grid0.Coords) (x0 : Vec Ideal S1x4096x64 .f32) (x1 : Vec Ideal S1x4096x2 .i32) (r : Fin 1024) (f : Fin 64) :
    k0_pay1 (F := Ideal) i x0 x1 (ix3 (0 : Fin 1) r f)
      = ∑ mm : Fin 4096,
          if x1 (ix3 (0 : Fin 1) mm (0 : Fin 2)) * 128#32 + x1 (ix3 (0 : Fin 1) mm (1 : Fin 2)) = BitVec.ofNat 32 ((i 1).val * 1024 + r.val)
          then x0 (ix3 (0 : Fin 1) mm f) else 0 := by
  rw [pay_eq]
  refine (shapeCast_ab_1ab_apply _ shapeCasts_S1024x64_S1x1024x64 (0 : Fin 1) r f).trans ?_
  refine (prod_apply (onehot i x1) (feat x0) r f).trans ?_
  refine Finset.sum_congr rfl fun mm _ => ?_
  rw [onehot_apply, feat_apply]
  by_cases h : x1 (ix3 (0 : Fin 1) mm (0 : Fin 2)) * 128#32 + x1 (ix3 (0 : Fin 1) mm (1 : Fin 2))
      = BitVec.ofNat 32 ((i 1).val * 1024 + r.val)
  · rw [if_pos h, if_pos h]; exact one_mul _
  · rw [if_neg h, if_neg h]; exact zero_mul _

end Cert.KernelIdeal.Payload
end
-- ==== Proof.KernelValue.lean ====
/-
  The idealized kernel's result as one function of its argument arrays.

  The grid has 32 × 16 points; point `t` works on batch `t / 16` and on rows `[(t % 16) · 1024, (t % 16 + 1) · 1024)` of the
  flattened pair space. Its two input blocks are batch `t / 16` of the edge features and of the pair indices, whole; what
  it writes back is the one-hot contraction of those two blocks against the row numbers of its tile, which is the
  corresponding block of the whole-array contraction `ScatterSpec.flat` (`flushed_eq`). The 512 output blocks tile the
  [32, 16384, 64] array (`cover`), so after the run the array IS `flat` of the arguments (`final`). The one host operation
  after the region reshapes it to [32, 128, 128, 64]: entry `(b, p, q, f)` is row `128 p + q` of batch `b` (`tail_eq`,
  `reshape_flat`), which is the dense scatter sum when every pair index is in `[0, 128)` (`run`).
-/
import proofs.«422634_j56538949484714_1_alg».proof.Proof.FrameKernelIdeal
import proofs.«422634_j56538949484714_1_alg».proof.Proof.KernelPayload
import proofs.«422634_j56538949484714_1_alg».proof.Proof.Spec
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.KValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.ScatterSpec

variable (m : (ℓ : Loc nD τ sig) → Buf (Elt Ideal) ℓ) (ρ : Dev nD → PrngReg)

/-- The edge-feature array and the pair-index array as the region finds them. -/
abbrev efArr (c : Dev nD) : Vec Ideal S32x4096x64 .f32 := V m c main_arg0
abbrev prArr (c : Dev nD) : Vec Ideal S32x4096x2 .i32 := V m c main_arg1

theorem hz3 : (![0, 0, 0] : Fin 3 → Nat) = fun _ => 0 := funext fun a => by fin_cases a <;> rfl

/-- The printed index maps and the grid's coordinates, decided once over the 512 points: point `t` is batch `t / 16`,
    row tile `t % 16`. -/
theorem idx_facts : ∀ t : Fin cfg0.N,
    win0_0.index t (0 : Fin 3) = t.val / 16 ∧ win0_0.index t (1 : Fin 3) = 0 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = t.val % 16 ∧ win0_2.index t (2 : Fin 3) = 0
    ∧ ((grid0.coords t) (1 : Fin 2)).val = t.val % 16 :=
  (by decide +kernel : ∀ t : Fin grid0.N, _)

theorem lt512 (t : Fin cfg0.N) : t.val < 512 := lt_of_lt_of_eq t.isLt N_0

/-- The batch a grid point works on. -/
abbrev batchOf (t : Fin cfg0.N) : Fin 32 := ⟨t.val / 16, by have := lt512 t; omega⟩
/-- The row of the flattened pair space that row `r` of point `t`'s output block is. -/
abbrev rowOf (t : Fin cfg0.N) (r : Fin 1024) : Fin 16384 := ⟨t.val % 16 * 1024 + r.val, by have := r.isLt; omega⟩

/-- Point `t`'s block of the edge features is batch `t / 16` whole. -/
theorem iblk0_apply (c : Dev nD) (t : Fin cfg0.N) (mm : Fin 4096) (f : Fin 64) :
    iblk m c 0 t (ix3 (0 : Fin 1) mm f) = efArr m c (ix3 (batchOf t) mm f) := by
  obtain ⟨e0, e1, e2, -⟩ := idx_facts t
  show V m c main_arg0 (((cfg0.win 0).blk t).view.emb (ix3 (0 : Fin 1) mm f)) = V m c main_arg0 (ix3 (batchOf t) mm f)
  refine congrArg _ (funext fun a => Fin.ext ?_)
  match a with
  | ⟨0, _⟩ => show win0_0.index t (0 : Fin 3) * 1 + 1 * 0 = t.val / 16; omega
  | ⟨1, _⟩ => show win0_0.index t (1 : Fin 3) * 4096 + 1 * mm.val = mm.val; omega
  | ⟨2, _⟩ => show win0_0.index t (2 : Fin 3) * 64 + 1 * f.val = f.val; omega

/-- Point `t`'s block of the pair indices is batch `t / 16` whole. -/
theorem iblk1_apply (c : Dev nD) (t : Fin cfg0.N) (mm : Fin 4096) (k : Fin 2) :
    iblk m c 1 t (ix3 (0 : Fin 1) mm k) = prArr m c (ix3 (batchOf t) mm k) := by
  obtain ⟨-, -, -, e0, e1, e2, -⟩ := idx_facts t
  show V m c main_arg1 (((cfg0.win 1).blk t).view.emb (ix3 (0 : Fin 1) mm k)) = V m c main_arg1 (ix3 (batchOf t) mm k)
  refine congrArg _ (funext fun a => Fin.ext ?_)
  match a with
  | ⟨0, _⟩ => show win0_1.index t (0 : Fin 3) * 1 + 1 * 0 = t.val / 16; omega
  | ⟨1, _⟩ => show win0_1.index t (1 : Fin 3) * 4096 + 1 * mm.val = mm.val; omega
  | ⟨2, _⟩ => show win0_1.index t (2 : Fin 3) * 2 + 1 * k.val = k.val; omega

/-- Row `r`, feature `f` of point `t`'s output block sits at batch `t / 16`, row `(t % 16) * 1024 + r` of the flattened array. -/
theorem emb2_apply (t : Fin cfg0.N) (r : Fin 1024) (f : Fin 64) :
    ((cfg0.win 2).blk t).view.emb (ix3 (0 : Fin 1) r f) = (ix3 (batchOf t) (rowOf t r) f : S32x16384x64.Idx) := by
  obtain ⟨-, -, -, -, -, -, e0, e1, e2, -⟩ := idx_facts t
  refine funext fun a => Fin.ext ?_
  match a with
  | ⟨0, _⟩ => show win0_2.index t (0 : Fin 3) * 1 + 1 * 0 = t.val / 16; omega
  | ⟨1, _⟩ => show win0_2.index t (1 : Fin 3) * 1024 + 1 * r.val = t.val % 16 * 1024 + r.val; omega
  | ⟨2, _⟩ => show win0_2.index t (2 : Fin 3) * 64 + 1 * f.val = f.val; omega

theorem flushed_eq (c : Dev nD) (t : Fin cfg0.N) :
    (dats m 0 c).flushed 2 t = ((cfg0.win 2).blk t).view.read (Elt Ideal) (flat (efArr m c) (prArr m c)) := by
  show (cfg0.win 2).cut (grid0.coords t) ((dats m 0 c).after 2 t) = _
  rw [after0_2]
  unfold out0_2
  rw [View.canon_unit_zero hz3]
  simp only [View.ld_unit_zero (S := S1x4096x64) hz3, View.ld_unit_zero (S := S1x4096x2) hz3]
  funext y
  revert y
  show ∀ y : S1x1024x64.Idx, (k0_pay1 (F := Ideal) (grid0.coords t) (iblk m c 0 t) (iblk m c 1 t)) y
      = flat (efArr m c) (prArr m c) (((cfg0.win 2).blk t).view.emb y)
  intro y
  obtain ⟨z, r, f, rfl⟩ : ∃ (z : Fin 1) (r : Fin 1024) (f : Fin 64), y = ix3 z r f := ⟨y 0, y 1, y 2, eq_ix3 y⟩
  obtain rfl : z = 0 := Fin.ext (by have := z.isLt; omega)
  refine (Cert.KernelIdeal.Payload.pay_apply (grid0.coords t) (iblk m c 0 t) (iblk m c 1 t) r f).trans ?_
  rw [emb2_apply]
  show _ = flatSum (efArr m c) (prArr m c) (batchOf t) (rowOf t r) f
  unfold flatSum
  refine Finset.sum_congr rfl fun mm _ => ?_
  rw [iblk0_apply, iblk1_apply, iblk1_apply, (idx_facts t).2.2.2.2.2.2.2.2.2]

/-- An index of the flattened array is in point `t`'s block iff each coordinate is in the block's range on its axis. -/
theorem mem_blk (t : Fin cfg0.N) (i : S32x16384x64.Idx) :
    i ∈ ((cfg0.win 2).blk t).view.set ↔ ∀ a : Fin 3, win0_2.index t a * S1x1024x64.size a ≤ (i a).val
      ∧ (i a).val < win0_2.index t a * S1x1024x64.size a + S1x1024x64.size a := by
  show i ∈ ((View.whole main_v0).slice (win0_2.rect t)).set ↔ _
  rw [View.set_slice_whole, Rect.mem_set_unit]
  exact Iff.rfl

/-- Every index of the flattened array is written back by some point: batch `b`, row `k` by point `16 b + k / 1024`. -/
theorem cover (i : S32x16384x64.Idx) :
    ∃ t : Fin cfg0.N, (cfg0.win 2).flush t = true ∧ i ∈ ((cfg0.win 2).blk t).view.set := by
  have h0 : (i 0).val < 32 := (i 0).isLt
  have h1 : (i 1).val < 16384 := (i 1).isLt
  have h2 : (i 2).val < 64 := (i 2).isLt
  have hN : (i 0).val * 16 + (i 1).val / 1024 < cfg0.N := lt_of_lt_of_eq (by omega : _ < 512) N_0.symm
  refine ⟨⟨(i 0).val * 16 + (i 1).val / 1024, hN⟩, flush0_2 _, ?_⟩
  rw [mem_blk]
  obtain ⟨-, -, -, -, -, -, e0, e1, e2, -⟩ := idx_facts ⟨(i 0).val * 16 + (i 1).val / 1024, hN⟩
  simp only [] at e0 e1 e2
  intro a
  match a with
  | ⟨0, _⟩ =>
    show win0_2.index ⟨(i 0).val * 16 + (i 1).val / 1024, hN⟩ (0 : Fin 3) * 1 ≤ (i 0).val
      ∧ (i 0).val < win0_2.index ⟨(i 0).val * 16 + (i 1).val / 1024, hN⟩ (0 : Fin 3) * 1 + 1
    omega
  | ⟨1, _⟩ =>
    show win0_2.index ⟨(i 0).val * 16 + (i 1).val / 1024, hN⟩ (1 : Fin 3) * 1024 ≤ (i 1).val
      ∧ (i 1).val < win0_2.index ⟨(i 0).val * 16 + (i 1).val / 1024, hN⟩ (1 : Fin 3) * 1024 + 1024
    omega
  | ⟨2, _⟩ =>
    show win0_2.index ⟨(i 0).val * 16 + (i 1).val / 1024, hN⟩ (2 : Fin 3) * 64 ≤ (i 2).val
      ∧ (i 2).val < win0_2.index ⟨(i 0).val * 16 + (i 1).val / 1024, hN⟩ (2 : Fin 3) * 64 + 64
    omega

/-- The flattened array after the run is the one-hot contraction of the argument arrays. -/
theorem final (c : Dev nD) : (dats m 0 c).arrAt 2 cfg0.N = flat (efArr m c) (prArr m c) :=
  (dats m 0 c).arrAt_eq_of_cover 2 (flat (efArr m c) (prArr m c)) (fun t _ => flushed_eq m c t) cover

theorem tail_eq (c : Dev nD) :
    Pipeline.afterTail₀ cfgs (dats m) 0 (V0 m) [hostOps1] c main_v1
      = shapeCast S32x128x128x64 (flat (efArr m c) (prArr m c)) shapeCasts_S32x16384x64_S32x128x128x64 := by
  unfold Pipeline.afterTail₀
  show StableHlo.after hostOps1 _ (Proc.devRef .tc main_v1) = _
  after_results
  funext i
  show shapeCast S32x128x128x64 (Pipeline.withArrays (cfgs 0).spec c (V0 m c) (fun w => (dats m 0 c).arrAt w (cfgs 0).N)
      (Proc.devRef .tc (Pipeline.arrRef spec0 2))) shapeCasts_S32x16384x64_S32x128x128x64 i = _
  rw [Pipeline.withArrays_arr spec0 launch0.win.arr_inj c _ _ 2, final]

/-- The host reshape [32, 16384, 64] → [32, 128, 128, 64] reads entry `(b, p, q, f)` at row `p * 128 + q` of batch `b`; with
    every pair member in range that row of the one-hot contraction is the dense scatter sum. -/
theorem reshape_flat (ef : SEdge.Idx → EReal) (pr : SPair.Idx → BitVec 32) (hr : ∀ x, (pr x).toNat < 128)
    (h : SFlat.ShapeCasts SDense) : shapeCast SDense (flat ef pr) h = dense ef pr := by
  funext o
  obtain ⟨b, p, q, f, rfl⟩ : ∃ (b : Fin 32) (p q : Fin 128) (f : Fin 64), o = ix4 b p q f := ⟨o 0, o 1, o 2, o 3, eq_ix4 o⟩
  have hp := p.isLt
  have hq := q.isLt
  refine (shapeCast_apply (flat ef pr) h (ix4 b p q f)
    (ix3 b (⟨p.val * 128 + q.val, by omega⟩ : Fin 16384) f) ?_).trans ?_
  · rewrite [Shape.rowMajor_val_three, Shape.rowMajor_val_four]
    show (b.val * 16384 + (p.val * 128 + q.val)) * 64 + f.val = ((b.val * 128 + p.val) * 128 + q.val) * 64 + f.val
    omega
  · exact flat_eq_dense ef pr hr b p q f _ rfl

/-- THE RUN, READ: under the range condition on the pair indices the result buffer ends at the dense scatter sum of the
    argument arrays, and the arguments are unchanged. -/
theorem run (hr : ∀ (c : Dev nD) x, (m ((c.tc : Thread nD τ).loc main_arg1) x).toNat < 128) :
    θ_run defs (onTc (τ := τ) (main (F := Ideal))) ⟨m, fun _ => 0, ρ⟩ fun r => ∀ c : Dev nD,
      r.2.mem ((c.tc : Thread nD τ).loc main_v1)
          = dense (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ?_, ?_⟩) (run_main m ρ)
  · refine ((h c).2 main_v1 (by decide)).trans ?_
    rw [tail_eq]
    exact reshape_flat _ _ (hr c) _
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))

end Cert.KernelIdeal.KValue

end
-- ==== Proof.RefValue.lean ====
/-
  The reference program's result is the dense scatter sum.

  The reference adds every edge feature into a zero array of shape [batch, atom, atom, feature], at the position its
  index vector names. The index vector of edge `m` of batch `b` has three components: the batch number `b` and the two
  members of the edge's pair, each passed through the wrap that sends a negative index `w` to `w + extent`. A batch
  number is below 32 and, by hypothesis, a pair member is below 128, so no component is negative read signed: the wrap
  leaves each alone and its signed reading is the number itself.

  Feature `f'` of edge `(b', m)` therefore lands at `(b', first member, second member, f')`, always inside the array.
  Entry `(b, p, q, f)` collects exactly the features `(b, m, f)` with `m` an edge of batch `b` whose pair is `(p, q)`; the
  edge number puts these in bijection with the edges counted by the dense sum, and the zero operand adds nothing.
-/
import proofs.«422634_j56538949484714_1_alg».proof.Proof.Gen.ReferenceIdeal.Read
import proofs.«422634_j56538949484714_1_alg».proof.Proof.Spec
import Idealize.ShloMosaic.Lib.ValueIdx
import Idealize.ShloMosaic.PureOps.Ideal.Laws
noncomputable section
open scoped BigOperators
namespace Cert.ReferenceIdeal.RefValue
open Idealize.ShloMosaic Idealize.ShloMosaic.ValueIdx Cert.ReferenceIdeal

/-- An update index lands at the operand index `o` exactly when, on every operand axis, the window start plus the
    window coordinate is `o`'s coordinate: the range test is then automatic, `o` being inside the operand. -/
theorem resultIdx?_eq_some_iff {s si u : Shape} (d : ScatterDims s si u) {w : Nat} (j : u.Idx) (idx : IVec si w)
    (o : s.Idx) :
    d.resultIdx? j idx = some o ↔ ∀ a, d.start j idx a + (d.window j a : Int) = ((o a).val : Int) := by
  unfold ScatterDims.resultIdx?
  split
  · rename_i h
    constructor
    · intro he a
      have hv := congrArg Fin.val (congrFun (Option.some.inj he) a)
      simp only at hv
      have := h a
      omega
    · intro he
      congr 1
      funext a
      apply Fin.ext
      show (d.start j idx a + d.window j a).toNat = (o a).val
      have := he a
      omega
  · rename_i h
    constructor
    · intro he
      cases he
    · intro he
      exfalso
      apply h
      intro a
      have := he a
      have := (o a).isLt
      omega

/-- The scatter of this program: one index vector of three components per edge, naming the first three operand axes;
    the fourth operand axis is the window, the feature axis of the updates. -/
abbrev dn : ScatterDims S32x128x128x64 S32x4096x3 S32x4096x64 :=
  scatter_S32x128x128x64_S32x4096x3_S32x4096x64_2_012_012_2

section Coordinates
variable (b' : Fin 32) (m : Fin 4096) (f' : Fin 64) (idx : IVec S32x4096x3 32)

/-- On operand axis 0 the window of feature `(b', m, f')` starts at component 0 of edge `(b', m)`'s index vector, read
    signed. -/
theorem start0 : dn.start (ix3 b' m f') idx 0 = (idx (ix3 b' m (0 : Fin 3))).toInt := by
  unfold ScatterDims.start
  rw [dif_pos (show (0 : Fin S32x128x128x64.rank) ∈ dn.scatterDimsToOperandDims by decide)]
  congr 2
  funext c
  match c with
  | ⟨0, _⟩ => rfl
  | ⟨1, _⟩ => rfl
  | ⟨2, _⟩ => rfl

/-- On operand axis 1, component 1. -/
theorem start1 : dn.start (ix3 b' m f') idx 1 = (idx (ix3 b' m (1 : Fin 3))).toInt := by
  unfold ScatterDims.start
  rw [dif_pos (show (1 : Fin S32x128x128x64.rank) ∈ dn.scatterDimsToOperandDims by decide)]
  congr 2
  funext c
  match c with
  | ⟨0, _⟩ => rfl
  | ⟨1, _⟩ => rfl
  | ⟨2, _⟩ => rfl

/-- On operand axis 2, component 2. -/
theorem start2 : dn.start (ix3 b' m f') idx 2 = (idx (ix3 b' m (2 : Fin 3))).toInt := by
  unfold ScatterDims.start
  rw [dif_pos (show (2 : Fin S32x128x128x64.rank) ∈ dn.scatterDimsToOperandDims by decide)]
  congr 2
  funext c
  match c with
  | ⟨0, _⟩ => rfl
  | ⟨1, _⟩ => rfl
  | ⟨2, _⟩ => rfl

/-- The index vector does not name operand axis 3: the window starts at 0 there. -/
theorem start3 : dn.start (ix3 b' m f') idx 3 = 0 := by
  unfold ScatterDims.start
  rw [dif_neg (show ¬ (3 : Fin S32x128x128x64.rank) ∈ dn.scatterDimsToOperandDims by decide)]

/-- Operand axes 0, 1, 2 are inserted: the window has no extent there. -/
theorem window0 : dn.window (ix3 b' m f') 0 = 0 := by
  unfold ScatterDims.window
  rw [dif_neg (show ¬ (0 : Fin S32x128x128x64.rank) ∈ dn.sKept by decide)]
theorem window1 : dn.window (ix3 b' m f') 1 = 0 := by
  unfold ScatterDims.window
  rw [dif_neg (show ¬ (1 : Fin S32x128x128x64.rank) ∈ dn.sKept by decide)]
theorem window2 : dn.window (ix3 b' m f') 2 = 0 := by
  unfold ScatterDims.window
  rw [dif_neg (show ¬ (2 : Fin S32x128x128x64.rank) ∈ dn.sKept by decide)]
/-- Operand axis 3 is the one kept axis: its window coordinate is the update's feature coordinate. -/
theorem window3 : dn.window (ix3 b' m f') 3 = f'.val := by
  unfold ScatterDims.window
  rw [dif_pos (show (3 : Fin S32x128x128x64.rank) ∈ dn.sKept by decide)]
  rfl

end Coordinates

/-- A word below `2^31` is not negative read signed, so the wrap of a negative index leaves it alone, and its signed
    reading is its unsigned one. -/
theorem wrap_id (x k : BitVec 32) (hx : x.toNat < 2147483648) :
    Scalar.select (IntOp.cmpi .slt x 0#32) (IntOp.addi x k) x = x := by
  have h0 : IntOp.cmpi .slt x 0#32 = 0#1 := by
    unfold IntOp.cmpi
    have : x.slt 0#32 = false := by
      rw [BitVec.slt, decide_eq_false_iff_not, BitVec.toInt_eq_toNat_of_lt (by omega)]
      simp
    simp only [this]
    rfl
  rw [h0, select_zero]

theorem toInt_of_small (x : BitVec 32) (hx : x.toNat < 2147483648) : x.toInt = (x.toNat : Int) :=
  BitVec.toInt_eq_toNat_of_lt (by omega)

section IndexTensor
variable (x1 : IVec S32x4096x2 32) (b : Fin 32) (mm : Fin 4096)

/-- The batch numbers: row `b` of the broadcast iota holds the word `b`. -/
theorem batch_word : Read.val_main_v2 (F := Ideal) (ix2 b mm) = BitVec.ofNat 32 b.val := by
  rw [Read.val_main_v2_apply, Read.val_main_v1_apply, Read.val_main_v0_apply]

/-- The first members of the pairs, as a [batch, edge] array: the slice at member 0 with its unit axis dropped. The
    flattened position `b * 4096 + mm` splits back into `b` and `mm`. -/
theorem first_word : Read.val_main_v4 (F := Ideal) x1 (ix2 b mm) = x1 (ix3 b mm (0 : Fin 2)) := by
  rw [Read.val_main_v4_apply, Read.val_main_v3_apply]
  congr 1
  funext a
  have hb := b.isLt
  have hm := mm.isLt
  match a with
  | ⟨0, _⟩ => exact Fin.ext (by show (b.val * 4096 + mm.val) / 4096 = b.val; omega)
  | ⟨1, _⟩ => exact Fin.ext (by show (b.val * 4096 + mm.val) / 1 % 4096 = mm.val; omega)
  | ⟨2, _⟩ => rfl

/-- The second members likewise: the slice at member 1. -/
theorem second_word : Read.val_main_v6 (F := Ideal) x1 (ix2 b mm) = x1 (ix3 b mm (1 : Fin 2)) := by
  rw [Read.val_main_v6_apply, Read.val_main_v5_apply]
  congr 1
  funext a
  have hb := b.isLt
  have hm := mm.isLt
  match a with
  | ⟨0, _⟩ => exact Fin.ext (by show (b.val * 4096 + mm.val) / 4096 = b.val; omega)
  | ⟨1, _⟩ => exact Fin.ext (by show (b.val * 4096 + mm.val) / 1 % 4096 = mm.val; omega)
  | ⟨2, _⟩ => rfl

/-- The wrapped batch number is the batch number: it is below 32, so not negative. -/
theorem batch_wrapped : Read.val_main_v12 (F := Ideal) (ix2 b mm) = BitVec.ofNat 32 b.val := by
  rw [Read.val_main_v12_apply, Read.val_main_v9_apply, Read.val_main_v11_apply, Read.val_main_v8_apply,
    Read.val_main_c_apply, batch_word]
  have hb := b.isLt
  exact wrap_id _ _ (by rw [BitVec.toNat_ofNat]; omega)

/-- The wrapped first member is the first member, when that is below 128. -/
theorem first_wrapped (h : (x1 (ix3 b mm (0 : Fin 2))).toNat < 128) :
    Read.val_main_v17 (F := Ideal) x1 (ix2 b mm) = x1 (ix3 b mm (0 : Fin 2)) := by
  rw [Read.val_main_v17_apply, Read.val_main_v14_apply, Read.val_main_v16_apply, Read.val_main_v13_apply,
    Read.val_main_c_1_apply, first_word]
  exact wrap_id _ _ (by omega)

/-- The wrapped second member is the second member, when that is below 128. -/
theorem second_wrapped (h : (x1 (ix3 b mm (1 : Fin 2))).toNat < 128) :
    Read.val_main_v22 (F := Ideal) x1 (ix2 b mm) = x1 (ix3 b mm (1 : Fin 2)) := by
  rw [Read.val_main_v22_apply, Read.val_main_v19_apply, Read.val_main_v21_apply, Read.val_main_v18_apply,
    Read.val_main_c_3_apply, second_word]
  exact wrap_id _ _ (by omega)

/-- Component 0 of an edge's index vector is the first of the three joined pieces: the batch number. -/
theorem comp0 : Read.val_main_v26 (F := Ideal) x1 (ix3 b mm (0 : Fin 3)) = BitVec.ofNat 32 b.val := by
  unfold Read.val_main_v26
  rw [concatenate_apply_piece (2 : Fin S32x4096x3.rank) _ _ (ix3 b mm (0 : Fin 3)) 0 (by show (0 : Nat) < 3; omega) S32x4096x1
    (Read.val_main_v23 (F := Ideal)) rfl rfl 0 rfl (ix3 b mm (0 : Fin 1))
    (fun a => match a with
      | ⟨0, _⟩ => fun _ => rfl
      | ⟨1, _⟩ => fun _ => rfl
      | ⟨2, _⟩ => fun h => absurd rfl h)
    rfl]
  rw [Read.val_main_v23_apply]
  exact batch_wrapped b mm

/-- Component 1 is the second piece, after one piece of extent 1: the first member of the pair. -/
theorem comp1 (h : (x1 (ix3 b mm (0 : Fin 2))).toNat < 128) :
    Read.val_main_v26 (F := Ideal) x1 (ix3 b mm (1 : Fin 3)) = x1 (ix3 b mm (0 : Fin 2)) := by
  unfold Read.val_main_v26
  rw [concatenate_apply_piece (2 : Fin S32x4096x3.rank) _ _ (ix3 b mm (1 : Fin 3)) 1 (by show (1 : Nat) < 3; omega) S32x4096x1
    (Read.val_main_v24 (F := Ideal) x1) rfl rfl 1 rfl (ix3 b mm (0 : Fin 1))
    (fun a => match a with
      | ⟨0, _⟩ => fun _ => rfl
      | ⟨1, _⟩ => fun _ => rfl
      | ⟨2, _⟩ => fun h => absurd rfl h)
    rfl]
  rw [Read.val_main_v24_apply]
  exact first_wrapped x1 b mm h

/-- Component 2 is the third piece, after two pieces of extent 1: the second member of the pair. -/
theorem comp2 (h : (x1 (ix3 b mm (1 : Fin 2))).toNat < 128) :
    Read.val_main_v26 (F := Ideal) x1 (ix3 b mm (2 : Fin 3)) = x1 (ix3 b mm (1 : Fin 2)) := by
  unfold Read.val_main_v26
  rw [concatenate_apply_piece (2 : Fin S32x4096x3.rank) _ _ (ix3 b mm (2 : Fin 3)) 2 (by show (2 : Nat) < 3; omega) S32x4096x1
    (Read.val_main_v25 (F := Ideal) x1) rfl rfl 2 rfl (ix3 b mm (0 : Fin 1))
    (fun a => match a with
      | ⟨0, _⟩ => fun _ => rfl
      | ⟨1, _⟩ => fun _ => rfl
      | ⟨2, _⟩ => fun h => absurd rfl h)
    rfl]
  rw [Read.val_main_v25_apply]
  exact second_wrapped x1 b mm h

end IndexTensor

/-- Every update index is `(b', m, f')` for a batch, an edge and a feature number. -/
theorem exists_ix3 (j : S32x4096x64.Idx) : ∃ (b' : Fin 32) (m : Fin 4096) (f' : Fin 64), j = ix3 b' m f' :=
  ⟨j 0, j 1, j 2, eq_ix3 j⟩

section Sum
variable (x0 : FVec Ideal S32x4096x64 .f32) (x1 : IVec S32x4096x2 32) (hr : ∀ i, (x1 i).toNat < 128)
include hr

/-- Where an edge feature lands. The feature `(b', m, f')` goes to `(b, p, q, f)` exactly when `b' = b`, the edge's pair
    is `(p, q)` and `f' = f`: start plus window coordinate is, axis by axis, the batch number, the first member, the
    second member and the feature number, each a small non-negative word read signed. -/
theorem lands_iff (b' : Fin 32) (m : Fin 4096) (f' : Fin 64) (b : Fin 32) (p q : Fin 128) (f : Fin 64) :
    dn.resultIdx? (ix3 b' m f') (Read.val_main_v26 (F := Ideal) x1) = some (ix4 b p q f) ↔
      b' = b ∧
        ((x1 (ix3 b' m (0 : Fin 2))).toNat = p.val ∧ (x1 (ix3 b' m (1 : Fin 2))).toNat = q.val) ∧ f' = f := by
  rw [resultIdx?_eq_some_iff]
  have hb' := b'.isLt
  have hw0 := hr (ix3 b' m (0 : Fin 2))
  have hw1 := hr (ix3 b' m (1 : Fin 2))
  have e0 : dn.start (ix3 b' m f') (Read.val_main_v26 (F := Ideal) x1) 0 + (dn.window (ix3 b' m f') 0 : Int)
      = (b'.val : Int) := by
    rw [start0, window0, comp0, toInt_of_small _ (by rw [BitVec.toNat_ofNat]; omega), BitVec.toNat_ofNat]
    omega
  have e1 : dn.start (ix3 b' m f') (Read.val_main_v26 (F := Ideal) x1) 1 + (dn.window (ix3 b' m f') 1 : Int)
      = ((x1 (ix3 b' m (0 : Fin 2))).toNat : Int) := by
    rw [start1, window1, comp1 x1 b' m hw0, toInt_of_small _ (by omega)]
    omega
  have e2 : dn.start (ix3 b' m f') (Read.val_main_v26 (F := Ideal) x1) 2 + (dn.window (ix3 b' m f') 2 : Int)
      = ((x1 (ix3 b' m (1 : Fin 2))).toNat : Int) := by
    rw [start2, window2, comp2 x1 b' m hw1, toInt_of_small _ (by omega)]
    omega
  have e3 : dn.start (ix3 b' m f') (Read.val_main_v26 (F := Ideal) x1) 3 + (dn.window (ix3 b' m f') 3 : Int)
      = (f'.val : Int) := by
    rw [start3, window3]
    omega
  constructor
  · intro h
    have h0 := h 0
    have h1 := h 1
    have h2 := h 2
    have h3 := h 3
    rw [e0] at h0
    rw [e1] at h1
    rw [e2] at h2
    rw [e3] at h3
    exact ⟨Fin.ext (by exact_mod_cast h0), ⟨by exact_mod_cast h1, by exact_mod_cast h2⟩,
      Fin.ext (by exact_mod_cast h3)⟩
  · rintro ⟨rfl, ⟨h1, h2⟩, rfl⟩ a
    match a with
    | ⟨0, _⟩ => exact e0
    | ⟨1, _⟩ => exact e1.trans (congrArg Nat.cast h1)
    | ⟨2, _⟩ => exact e2.trans (congrArg Nat.cast h2)
    | ⟨3, _⟩ => exact e3

/-- The features that land at `(b, p, q, f)` are, one for one, the edges `m` of batch `b` whose pair is `(p, q)`, each
    contributing its feature `f`: the edge number is the bijection, `m ↦ (b, m, f)` its inverse. -/
theorem landed_sum (b : Fin 32) (p q : Fin 128) (f : Fin 64)
    [DecidablePred fun j : S32x4096x64.Idx =>
      dn.resultIdx? j (Read.val_main_v26 (F := Ideal) x1) = some (ix4 b p q f)] :
    ∑ j ∈ Finset.univ.filter (fun j : S32x4096x64.Idx =>
        dn.resultIdx? j (Read.val_main_v26 (F := Ideal) x1) = some (ix4 b p q f)), x0 j
      = Cert.ScatterSpec.denseSum x0 x1 b p q f := by
  unfold Cert.ScatterSpec.denseSum
  rw [← Finset.sum_filter]
  refine Finset.sum_nbij' (fun j => j 1) (fun m => ix3 b m f) ?_ ?_ ?_ ?_ ?_
  · intro j hj
    obtain ⟨b', m, f', rfl⟩ := exists_ix3 j
    obtain ⟨rfl, h12, -⟩ := (lands_iff x1 hr b' m f' b p q f).1 (Finset.mem_filter.1 hj).2
    exact Finset.mem_filter.2 ⟨Finset.mem_univ _, h12⟩
  · intro m hm
    exact Finset.mem_filter.2 ⟨Finset.mem_univ _,
      (lands_iff x1 hr b m f b p q f).2 ⟨rfl, (Finset.mem_filter.1 hm).2, rfl⟩⟩
  · intro j hj
    obtain ⟨b', m, f', rfl⟩ := exists_ix3 j
    obtain ⟨rfl, -, rfl⟩ := (lands_iff x1 hr b' m f' b p q f).1 (Finset.mem_filter.1 hj).2
    rfl
  · intro m _
    rfl
  · intro j hj
    obtain ⟨b', m, f', rfl⟩ := exists_ix3 j
    obtain ⟨rfl, -, rfl⟩ := (lands_iff x1 hr b' m f' b p q f).1 (Finset.mem_filter.1 hj).2
    rfl

end Sum

/-- **The reference's result is the dense scatter sum.** The operand is zero everywhere, so each result entry is the sum
    of the edge features that land on it. -/
theorem ref_eq_dense (x0 : FVec Ideal S32x4096x64 .f32) (x1 : IVec S32x4096x2 32) (hr : ∀ i, (x1 i).toNat < 128) :
    Cert.ReferenceIdeal.Read.val_main_v27 (F := Ideal) x0 x1 = Cert.ScatterSpec.dense x0 x1 := by
  funext o
  obtain ⟨b, p, q, f, rfl⟩ : ∃ (b : Fin 32) (p q : Fin 128) (f : Fin 64), o = ix4 b p q f :=
    ⟨o 0, o 1, o 2, o 3, eq_ix4 o⟩
  have hz : Read.val_main_v7 (F := Ideal) (ix4 b p q f) = 0 := by
    rw [Read.val_main_v7_apply, Read.val_main_cst_apply]
    exact Idealize.ShloMosaic.Ideal.ofBits_zero_f32
  show Ideal.hostScatterAdd dn (Read.val_main_v7 (F := Ideal)) (Read.val_main_v26 (F := Ideal) x1) x0 (ix4 b p q f)
    = Cert.ScatterSpec.denseSum x0 x1 b p q f
  unfold Ideal.hostScatterAdd
  rw [hz, zero_add]
  exact landed_sum x0 x1 hr b p q f

end Cert.ReferenceIdeal.RefValue
end
-- ==== Proof.lean ====
/-
  Scatter-add of edge features into a dense adjacency tensor: the kernel against its reference, over the extended reals.

  Inputs: edge features `ef : [32, 4096, 64]` and pair indices `(i, j) : [32, 4096, 2]`; the precondition says every feature
  is finite and every pair index lies in `[0, 128)`. The result is `[32, 128, 128, 64]`.

  * The reference adds, for each batch `b` and edge `m`, the feature row `ef[b, m, :]` into entry `(i_m, j_m)` of batch `b` of
    a zero tensor (an accumulating scatter, exact at the ideal instance): entry `(b, p, q, f)` is the sum of `ef[b, m, f]`
    over the edges `m` with `(i_m, j_m) = (p, q)`.
  * The kernel has no scatter. For each batch and each tile of 1024 rows of the flattened pair space `k = 128 i + j` it
    builds the 0/1 matrix `[k_m = k]` over (edge, row) and contracts it with the feature block on the matrix unit:
    row `k`, feature `f` is `Σ_m [128 i_m + j_m = k] · ef[b, m, f]`, in 32-bit words; the host then reshapes
    `[32, 16384, 64]` to `[32, 128, 128, 64]`.

  With both pair members in `[0, 128)` the word `128 i + j` does not wrap and determines `(i, j)`, so row `128 p + q` of the
  contraction is entry `(p, q)` of the scatter; `0 · x = 0` and `1 · x = x` on every extended real, so no finiteness is
  used. Outside that range the two differ (the flattened word aliases another entry where the reference drops the update),
  which is why the range is part of the precondition.
-/
import proofs.«422634_j56538949484714_1_alg».proof.Defs
import proofs.«422634_j56538949484714_1_alg».proof.Proof.Gen.Kernel
import proofs.«422634_j56538949484714_1_alg».proof.Proof.Gen.Kernel.Skeleton
import proofs.«422634_j56538949484714_1_alg».proof.Proof.Gen.Kernel.Launch
import proofs.«422634_j56538949484714_1_alg».proof.Proof.Gen.Kernel.Points
import proofs.«422634_j56538949484714_1_alg».proof.Proof.FrameKernel
import proofs.«422634_j56538949484714_1_alg».proof.Proof.Gen.KernelIdeal
import proofs.«422634_j56538949484714_1_alg».proof.Proof.Gen.KernelIdeal.Skeleton
import proofs.«422634_j56538949484714_1_alg».proof.Proof.Gen.KernelIdeal.Launch
import proofs.«422634_j56538949484714_1_alg».proof.Proof.Gen.KernelIdeal.Points
import proofs.«422634_j56538949484714_1_alg».proof.Proof.FrameKernelIdeal
import proofs.«422634_j56538949484714_1_alg».proof.Proof.Gen.ReferenceIdeal
import proofs.«422634_j56538949484714_1_alg».proof.Proof.Gen.ReferenceIdeal.Run
import proofs.«422634_j56538949484714_1_alg».proof.Proof.Gen.ReferenceIdeal.Read
import proofs.«422634_j56538949484714_1_alg».proof.Proof.Gen.Pre_finite_inputs
import proofs.«422634_j56538949484714_1_alg».proof.Proof.Spec
import proofs.«422634_j56538949484714_1_alg».proof.Proof.PreRange
import proofs.«422634_j56538949484714_1_alg».proof.Proof.KernelValue
import proofs.«422634_j56538949484714_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments alone: the launch of its one region and the reshape after it. -/
theorem frame_kernel : Cert.frame_Kernel := fun m ρ _ => Cert.Kernel.GenP.frame m ρ

/-- The same of the kernel read at the extended reals. -/
theorem frame_kernelIdeal : Cert.frame_KernelIdeal := fun m ρ _ => Cert.KernelIdeal.GenP.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing in the kernel: there is nothing to preserve. -/
theorem preserves : Cert.preserves_Kernel_KernelIdeal := trivial

/-- Both programs end with the result at the dense scatter sum of the (agreeing) arguments: the kernel by its one-hot
    contraction and the reshape, the reference by its accumulating scatter, the two sums equal because every pair index is
    in `[0, 128)`. -/
theorem algebraic : Cert.algebraic_KernelIdeal_ReferenceIdeal := by
  intro m ρ m' ρ' hpre hagree
  have hr : ∀ (c : Dev Cert.KernelIdeal.nD) x,
      (m ((c.tc : Thread Cert.KernelIdeal.nD Cert.KernelIdeal.τ).loc Cert.KernelIdeal.main_arg1) x).toNat < 128 :=
    fun c x => Cert.PreRange.range_of_pre _ _ (hpre c) x
  refine ⟨fun c => Cert.ScatterSpec.dense
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ hr, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v27_eq _ _).trans (Cert.ReferenceIdeal.RefValue.ref_eq_dense _ _ (hr c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
